-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x128 : Shape := ⟨3, ![64, 2048, 128]⟩
abbrev S64x2 : Shape := ⟨2, ![64, 2]⟩
abbrev S_ : Shape := ⟨0, ![]⟩

class Facts : Prop where
  bcast_S_S64x2048x128 : S_.BroadcastsInDim S64x2048x128 (![] : Fin 0 → Fin S64x2048x128.rank)
  reducesTo_S64x2048x128_S_d0_1_2 : S64x2048x128.ReducesTo [0, 1, 2] S_
  h_S_ : 0 < S_.numel

variable [Facts]

def fn {F : FTy → Type} [FloatOps F] (main_arg0 : FVec F S64x2048x128 .f32) (main_arg1 : IVec S64x2 32) : IVec S_ 1 :=
  let main_v0 : FVec F S64x2048x128 .f32 := Host.absf main_arg0
  let main_cst : FVec F S_ .f32 := constant S_ .f32 0x7F800000#32
  let main_v1 : FVec F S64x2048x128 .f32 := broadcastInDim S64x2048x128 ![] bcast_S_S64x2048x128 main_cst
  let main_v2 : IVec S64x2048x128 1 := cmpf .olt main_v0 main_v1
  let main_c : IVec S_ 1 := constantI S_ 1 1#1
  let main_v3 : IVec S_ 1 := (fun x v => Host.reduce IntOp.andi x v reducesTo_S64x2048x128_S_d0_1_2 h_S_) main_v2 main_c
  main_v3
-- ==== Kernel.lean ====
abbrev S64x2048x128 : Shape := ⟨3, ![64, 2048, 128]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x128 : Shape := ⟨3, ![64, 2, 128]⟩
abbrev S4x2048x128 : Shape := ⟨3, ![4, 2048, 128]⟩
abbrev S4x2x128 : Shape := ⟨3, ![4, 2, 128]⟩
abbrev S4x2x2048 : Shape := ⟨3, ![4, 2, 2048]⟩
abbrev S4x2048 : Shape := ⟨2, ![4, 2048]⟩
abbrev S4x2048x1 : Shape := ⟨3, ![4, 2048, 1]⟩

abbrev nBuf : Space → Nat
  | .hbm => 26
  | .vmem => 6
  | .smem => 0
  | _ => 0

abbrev bufTy : (tb : Table) → Fin (tcTables nBuf tb) → BufTy
  | .hbm, ⟨0, _⟩ => ⟨S64x2048x128, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x128, .f32⟩
  | .hbm, ⟨21, _⟩ => ⟨S64x2x128, .i1⟩
  | .hbm, ⟨22, _⟩ => ⟨S_, .f32⟩
  | .hbm, ⟨23, _⟩ => ⟨S64x2x128, .f32⟩
  | .hbm, ⟨24, _⟩ => ⟨S64x2x128, .f32⟩
  | .hbm, ⟨25, _⟩ => ⟨S64x2048x128, .f32⟩
  | .local _ .vmem, ⟨0, _⟩ => ⟨S4x2048x128, .f32⟩
  | .local _ .vmem, ⟨1, _⟩ => ⟨S4x2048x128, .f32⟩
  | .local _ .vmem, ⟨2, _⟩ => ⟨S4x2x128, .f32⟩
  | .local _ .vmem, ⟨3, _⟩ => ⟨S4x2x128, .f32⟩
  | .local _ .vmem, ⟨4, _⟩ => ⟨S4x2048x128, .f32⟩
  | .local _ .vmem, ⟨5, _⟩ => ⟨S4x2048x128, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x128_0_1 : S64x2.BroadcastsInDim S64x2x128 (![0, 1] : Fin 2 → Fin S64x2x128.rank)
  bcast_S_S64x2x128 : S_.BroadcastsInDim S64x2x128 (![] : Fin 0 → Fin S64x2x128.rank)
  inb_S4x2048x128_S4x2048x128_0_0_0 : ∀ a, (![0, 0, 0] : Fin 3 → Nat) a + S4x2048x128.size a ≤ S4x2048x128.size a
  h_S4x2048x128 : 0 < S4x2048x128.numel
  bitsLt_bf16_f32 : FTy.bits .bf16 < FTy.bits .f32
  inb_S4x2x128_S4x2x128_0_0_0 : ∀ a, (![0, 0, 0] : Fin 3 → Nat) a + S4x2x128.size a ≤ S4x2x128.size a
  h_S4x2x128 : 0 < S4x2x128.numel
  shapeCasts_S4x2x128_S4x2x128 : S4x2x128.ShapeCasts S4x2x128
  reduces_S4x2x2048_S4x2048 : S4x2x2048.Reduces [1] S4x2048
  shapeCasts_S4x2048_S4x2048x1 : S4x2048.ShapeCasts S4x2048x1
  broadcasts_S4x2048x1_S4x2048x128 : S4x2048x1.Broadcasts S4x2048x128
  gather_S64x2048x128_S64x2x1_S64x2x128_2_1_0_0_1_2_11128_wf : GatherDims.WF S64x2048x128 S64x2x1 S64x2x128 [2] [1] [0] [1] [0] 2 ![1, 1, 128]
  dot_S4x2x128_S4x2048x128_S4x2x2048_2_2_1_1_0_0_wf : DotDims.WF S4x2x128 S4x2048x128 S4x2x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x128.size a ≤ S64x2048x128.size a
  hwx0_0 : ∀ i : grid0.Coords, EltTy.bits .f32 = 32 ∨ (Rect.block (s := S64x2048x128) S4x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x128.size a ≤ S64x2x128.size a
  hwx0_1 : ∀ i : grid0.Coords, EltTy.bits .f32 = 32 ∨ (Rect.block (s := S64x2x128) S4x2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x128.size a ≤ S64x2048x128.size a
  hwx0_2 : ∀ i : grid0.Coords, EltTy.bits .f32 = 32 ∨ (Rect.block (s := S64x2048x128) S4x2048x128.size (cc0_transform_2 i) (hinb0_2 i)).WholeWords (EltTy.packing .f32)

variable [Facts₀]

def gather_S64x2048x128_S64x2x1_S64x2x128_2_1_0_0_1_2_11128 : GatherDims S64x2048x128 S64x2x1 S64x2x128 where
  offsetDims := [2]
  collapsedSliceDims := [1]
  operandBatchingDims := [0]
  startIndicesBatchingDims := [0]
  startIndexMap := [1]
  indexVectorDim := 2
  sliceSizes := ![1, 1, 128]
  wf := gather_S64x2048x128_S64x2x1_S64x2x128_2_1_0_0_1_2_11128_wf
def dot_S4x2x128_S4x2048x128_S4x2x2048_2_2_1_1_0_0 : DotDims S4x2x128 S4x2048x128 S4x2x2048 where
  lhsContracting := [2]
  rhsContracting := [2]
  lhsNonContracting := [1]
  rhsNonContracting := [1]
  lhsBatch := [0]
  rhsBatch := [0]
  wf := dot_S4x2x128_S4x2048x128_S4x2x2048_2_2_1_1_0_0_wf

abbrev win0_0 : Pipeline.Window sig grid0 :=
  Pipeline.Window.ofSpec (Memref.whole main_arg0) S4x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x128 : Shape := ⟨3, ![64, 2048, 128]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x128 : Shape := ⟨3, ![64, 2, 128]⟩
abbrev S64x2x2048 : Shape := ⟨3, ![64, 2, 2048]⟩
abbrev S64x2048 : Shape := ⟨2, ![64, 2048]⟩
abbrev S64x2048x1 : Shape := ⟨3, ![64, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x128, .f32⟩
  | .hbm, ⟨21, _⟩ => ⟨S64x2x128, .i1⟩
  | .hbm, ⟨22, _⟩ => ⟨S_, .f32⟩
  | .hbm, ⟨23, _⟩ => ⟨S64x2x128, .f32⟩
  | .hbm, ⟨24, _⟩ => ⟨S64x2x128, .f32⟩
  | .hbm, ⟨25, _⟩ => ⟨S64x2x2048, .f32⟩
  | .hbm, ⟨26, _⟩ => ⟨S_, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S64x2048x1, .f32⟩
  | .hbm, ⟨32, _⟩ => ⟨S64x2048x128, .f32⟩
  | .hbm, ⟨33, _⟩ => ⟨S64x2048x128, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x128_0_1 : S64x2.BroadcastsInDim S64x2x128 (![0, 1] : Fin 2 → Fin S64x2x128.rank)
  bcast_S_S64x2x128 : S_.BroadcastsInDim S64x2x128 (![] : Fin 0 → Fin S64x2x128.rank)
  reducesTo_S64x2x2048_S64x2048_d1 : S64x2x2048.ReducesTo [1] S64x2048
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x128_0_1_2 : S64x2048x1.BroadcastsInDim S64x2048x128 (![0, 1, 2] : Fin 3 → Fin S64x2048x128.rank)
  gather_S64x2048x128_S64x2x1_S64x2x128_2_1_0_0_1_2_11128_wf : GatherDims.WF S64x2048x128 S64x2x1 S64x2x128 [2] [1] [0] [1] [0] 2 ![1, 1, 128]
  dot_S64x2x128_S64x2048x128_S64x2x2048_2_2_1_1_0_0_wf : DotDims.WF S64x2x128 S64x2048x128 S64x2x2048 [2] [2] [1] [1] [0] [0]

variable [Facts₀]

def gather_S64x2048x128_S64x2x1_S64x2x128_2_1_0_0_1_2_11128 : GatherDims S64x2048x128 S64x2x1 S64x2x128 where
  offsetDims := [2]
  collapsedSliceDims := [1]
  operandBatchingDims := [0]
  startIndicesBatchingDims := [0]
  startIndexMap := [1]
  indexVectorDim := 2
  sliceSizes := ![1, 1, 128]
  wf := gather_S64x2048x128_S64x2x1_S64x2x128_2_1_0_0_1_2_11128_wf
def dot_S64x2x128_S64x2048x128_S64x2x2048_2_2_1_1_0_0 : DotDims S64x2x128 S64x2048x128 S64x2x2048 where
  lhsContracting := [2]
  rhsContracting := [2]
  lhsNonContracting := [1]
  rhsNonContracting := [1]
  lhsBatch := [0]
  rhsBatch := [0]
  wf := dot_S64x2x128_S64x2048x128_S64x2x2048_2_2_1_1_0_0_wf

class Facts : Prop extends Facts₀ where

variable [Facts]
-- ==== Proof.Spec.lean ====
/-
  The mathematics both programs compute, as one function of the sentence array and the two gathered
  entity rows.  For a batch `b` and a sentence position `l` the score is the mean, over the two entity
  rows `k`, of the inner product over the 128 features of entity row `k` with sentence row `l`; the
  result scales every feature of sentence row `l` by that score.  Everything is over the extended
  reals; the mean's divisor is the binary word of 2.0, left unevaluated (the same word on both sides).
-/
import Idealize.ShloMosaic.PureOps.Ideal
import Idealize.ShloMosaic.Lib.ValueIdx

noncomputable section

namespace Cert.Attend

open Idealize.ShloMosaic Idealize.ShloMosaic.ValueIdx

/-- The sentence array's shape: batch × position × feature. -/
abbrev SX : Shape := ⟨3, ![64, 2048, 128]⟩
/-- The entity rows' shape: batch × entity × feature. -/
abbrev SE : Shape := ⟨3, ![64, 2, 128]⟩

/-- The score of position `l` in batch `b`: the sum over the two entity rows of their inner products
    with sentence row `l`, divided by two. -/
def score (x : SX.Idx → EReal) (e : SE.Idx → EReal) (b : Fin 64) (l : Fin 2048) : EReal :=
  Ideal.div (∑ k : Fin 2, ∑ d : Fin 128, e (ix3 b k d) * x (ix3 b l d)) (Ideal.ofBits .f32 0x40000000#32)

/-- The result: each entry of the sentence array times the score of its row. -/
def attend (x : SX.Idx → EReal) (e : SE.Idx → EReal) : SX.Idx → EReal :=
  fun i => x i * score x e (i 0) (i 1)

theorem attend_apply (x : SX.Idx → EReal) (e : SE.Idx → EReal) (b : Fin 64) (l : Fin 2048) (d : Fin 128) :
    attend x e (ix3 b l d) = x (ix3 b l d) * score x e b l := rfl

end Cert.Attend

end
-- ==== Proof.RefValue.lean ====
/-
  The reference program's result, read one operation at a time, is the function `attend` of the sentence
  array and of whatever the reference's own gather produced for the entity rows: the host's product of the
  entity rows with the sentence rows is the inner product over the features, its sum over the entity axis
  starts from the zero word and adds the two products, and the quotient by the word of 2.0 and the final
  product are the specification's, entry by entry.
-/
import proofs.«139430_j72507637891612_1_alg».proof.Proof.Gen.ReferenceIdeal.Read
import proofs.«139430_j72507637891612_1_alg».proof.Proof.Spec

noncomputable section

namespace Cert.Attend.Reference

open Idealize.ShloMosaic Idealize.ShloMosaic.ValueIdx Cert.ReferenceIdeal Cert.ReferenceIdeal.Read Cert.Attend

/-- The reference's last stage is `attend` of the sentence array and the reference's gathered entity rows. -/
theorem result_eq (x0 : (⟨S64x2048x128, .f32⟩ : BufTy).Contents (Elt Ideal)) (x1 : (⟨S64x2, .i32⟩ : BufTy).Contents (Elt Ideal)) :
    val_main_v8 (F := Ideal) x0 x1 = attend x0 (val_main_v1 (F := Ideal) x0 x1) := by
  funext i
  rw [val_main_v8_apply, val_main_v7_apply, val_main_v6_apply, val_main_v5_apply, val_main_v3_apply, val_main_v4_apply,
    val_main_cst_0_apply, val_main_cst_apply]
  simp only [val_main_v2_apply]
  obtain ⟨b, l, d, rfl⟩ : ∃ (b : Fin 64) (l : Fin 2048) (d : Fin 128), i = ix3 b l d := ⟨i 0, i 1, i 2, eq_ix3 i⟩
  rw [attend_apply]
  unfold score
  -- the composed index maps of the stages name entity row (b, k) and sentence row (b, l) at feature d'
  have hl : ∀ (k : Fin 2) (d' : Fin 128),
      lidx_main_v2 (idx_main_v3 (idx_main_v6 (idx_main_v7 (ix3 b l d))) k) d' = ix3 b k d' := fun k d' =>
    funext fun a => Fin.ext (by match a with | ⟨0, _⟩ => rfl | ⟨1, _⟩ => rfl | ⟨2, _⟩ => rfl)
  have hr : ∀ (k : Fin 2) (d' : Fin 128),
      ridx_main_v2 (idx_main_v3 (idx_main_v6 (idx_main_v7 (ix3 b l d))) k) d' = ix3 b l d' := fun k d' =>
    funext fun a => Fin.ext (by match a with | ⟨0, _⟩ => rfl | ⟨1, _⟩ => rfl | ⟨2, _⟩ => rfl)
  simp only [hl, hr, Ideal.mulf_def, Ideal.hostDivf_def, Ideal.ofBits_def, Ideal.ofBits_zero_f32, zero_add]

end Cert.Attend.Reference

end
-- ==== Proof.KernelBody.lean ====
/-
  The kernel body's arithmetic at one entry of a block.  For a block of four batches the body multiplies the
  two entity rows of each batch with the sentence rows (a product over the 128 features, into a zero
  accumulator), sums the two products, halves the sum, and scales every feature of the sentence row by the
  result.  Rounding the operands to a narrower format is the identity over the extended reals, so entry
  (p, l, d) of the stored value is the sentence entry times half the sum over both entity rows of their
  inner products with sentence row l of batch p.
-/
import proofs.«139430_j72507637891612_1_alg».proof.Proof.Gen.KernelIdeal.Skeleton
import proofs.«139430_j72507637891612_1_alg».proof.Proof.Spec
import Idealize.ShloMosaic.Lib.Pipeline.Value
import Idealize.ShloMosaic.Lib.ValueIdx
import Idealize.ShloMosaic.PureOps.Ideal.Laws

noncomputable section

namespace Cert.Attend.Kernel

open Idealize.ShloMosaic Idealize.ShloMosaic.ValueIdx Cert.KernelIdeal Cert.KernelIdeal.Gen Cert.Attend

/-! The operand indices of the batched product: at output entry (p, k, l) and contracted feature q the left
    operand is read at (p, k, q) and the right at (p, l, q). -/

theorem lhs_axis0 (i : S4x2x2048.Idx) (q : dot_S4x2x128_S4x2048x128_S4x2x2048_2_2_1_1_0_0.contr.Idx) :
    (dot_S4x2x128_S4x2048x128_S4x2x2048_2_2_1_1_0_0.lhsIdx i q 0).val = (i 0).val := by
  unfold DotDims.lhsIdx
  rw [dif_pos (show (0 : Fin S4x2x128.rank) ∈ dot_S4x2x128_S4x2048x128_S4x2x2048_2_2_1_1_0_0.lhsBatch by decide)]
  rfl
theorem lhs_axis1 (i : S4x2x2048.Idx) (q : dot_S4x2x128_S4x2048x128_S4x2x2048_2_2_1_1_0_0.contr.Idx) :
    (dot_S4x2x128_S4x2048x128_S4x2x2048_2_2_1_1_0_0.lhsIdx i q 1).val = (i 1).val := by
  unfold DotDims.lhsIdx
  rw [dif_neg (show ¬(1 : Fin S4x2x128.rank) ∈ dot_S4x2x128_S4x2048x128_S4x2x2048_2_2_1_1_0_0.lhsBatch by decide), dif_pos (show (1 : Fin S4x2x128.rank) ∈ dot_S4x2x128_S4x2048x128_S4x2x2048_2_2_1_1_0_0.lhsNonContracting by decide)]
  rfl
theorem lhs_axis2 (i : S4x2x2048.Idx) (q : dot_S4x2x128_S4x2048x128_S4x2x2048_2_2_1_1_0_0.contr.Idx) :
    (dot_S4x2x128_S4x2048x128_S4x2x2048_2_2_1_1_0_0.lhsIdx i q 2).val = (q ⟨0, by decide⟩).val :=
  dot_S4x2x128_S4x2048x128_S4x2x2048_2_2_1_1_0_0.lhsIdx_val_of_single rfl i q
theorem rhs_axis0 (i : S4x2x2048.Idx) (q : dot_S4x2x128_S4x2048x128_S4x2x2048_2_2_1_1_0_0.contr.Idx) :
    (dot_S4x2x128_S4x2048x128_S4x2x2048_2_2_1_1_0_0.rhsIdx i q 0).val = (i 0).val := by
  unfold DotDims.rhsIdx
  rw [dif_pos (show (0 : Fin S4x2048x128.rank) ∈ dot_S4x2x128_S4x2048x128_S4x2x2048_2_2_1_1_0_0.rhsBatch by decide)]
  rfl
theorem rhs_axis1 (i : S4x2x2048.Idx) (q : dot_S4x2x128_S4x2048x128_S4x2x2048_2_2_1_1_0_0.contr.Idx) :
    (dot_S4x2x128_S4x2048x128_S4x2x2048_2_2_1_1_0_0.rhsIdx i q 1).val = (i 2).val := by
  unfold DotDims.rhsIdx
  rw [dif_neg (show ¬(1 : Fin S4x2048x128.rank) ∈ dot_S4x2x128_S4x2048x128_S4x2x2048_2_2_1_1_0_0.rhsBatch by decide), dif_pos (show (1 : Fin S4x2048x128.rank) ∈ dot_S4x2x128_S4x2048x128_S4x2x2048_2_2_1_1_0_0.rhsNonContracting by decide)]
  rfl
theorem rhs_axis2 (i : S4x2x2048.Idx) (q : dot_S4x2x128_S4x2048x128_S4x2x2048_2_2_1_1_0_0.contr.Idx) :
    (dot_S4x2x128_S4x2048x128_S4x2x2048_2_2_1_1_0_0.rhsIdx i q 2).val = (q ⟨0, by decide⟩).val :=
  dot_S4x2x128_S4x2048x128_S4x2x2048_2_2_1_1_0_0.rhsIdx_val_of_single rfl i q

/-- The products of entity rows with sentence rows: entry (p, k, l) is the inner product over the features. -/
theorem products_apply (e : FVec Ideal S4x2x128 .bf16) (x : FVec Ideal S4x2048x128 .bf16) (p : Fin 4) (k : Fin 2) (l : Fin 2048) :
    matmul dot_S4x2x128_S4x2048x128_S4x2x2048_2_2_1_1_0_0 none e x (constant (F := Ideal) S4x2x2048 .f32 0x00000000#32) (ix3 p k l)
      = ∑ d : Fin 128, e (ix3 p k d) * x (ix3 p l d) := by
  show FloatOps.matmul _ _ _ _ _ _ = _
  rw [Ideal.matmul_constant_zero_apply, ← Equiv.sum_comp (contrEquiv1 dot_S4x2x128_S4x2048x128_S4x2x2048_2_2_1_1_0_0 128 rfl rfl).symm]
  refine Finset.sum_congr rfl fun d _ => ?_
  have hk := contrEquiv1_symm_val dot_S4x2x128_S4x2048x128_S4x2x2048_2_2_1_1_0_0 128 rfl rfl d
  have el : dot_S4x2x128_S4x2048x128_S4x2x2048_2_2_1_1_0_0.lhsIdx (ix3 p k l) ((contrEquiv1 dot_S4x2x128_S4x2048x128_S4x2x2048_2_2_1_1_0_0 128 rfl rfl).symm d) = ix3 p k d := funext fun a => Fin.ext (by
    match a with
    | ⟨0, _⟩ => exact lhs_axis0 _ _
    | ⟨1, _⟩ => exact lhs_axis1 _ _
    | ⟨2, _⟩ => exact (lhs_axis2 _ _).trans hk)
  have er : dot_S4x2x128_S4x2048x128_S4x2x2048_2_2_1_1_0_0.rhsIdx (ix3 p k l) ((contrEquiv1 dot_S4x2x128_S4x2048x128_S4x2x2048_2_2_1_1_0_0 128 rfl rfl).symm d) = ix3 p l d := funext fun a => Fin.ext (by
    match a with
    | ⟨0, _⟩ => exact rhs_axis0 _ _
    | ⟨1, _⟩ => exact rhs_axis1 _ _
    | ⟨2, _⟩ => exact (rhs_axis2 _ _).trans hk)
  rw [el, er]

/-- The stored value at entry (p, l, d): the sentence entry times the halved sum of the two inner products. -/
theorem pay_apply (v0 : Vec Ideal S4x2048x128 .f32) (v2 : Vec Ideal S4x2x128 .f32) (p : Fin 4) (l : Fin 2048) (d : Fin 128) :
    k0_pay1 (F := Ideal) v0 v2 (ix3 p l d)
      = v0 (ix3 p l d) * Ideal.div (∑ k : Fin 2, ∑ d' : Fin 128, v2 (ix3 p k d') * v0 (ix3 p l d')) (Ideal.ofBits .f32 0x40000000#32) := by
  unfold k0_pay1
  rw [mulf_apply]
  refine congrArg (v0 (ix3 p l d) * ·) ?_
  rw [broadcastTo_apply _ broadcasts_S4x2048x1_S4x2048x128 (ix3 p l d) (ix3 p l (0 : Fin 1)) (fun a => by
    match a with
    | ⟨0, _⟩ => show p.val = if (4 : Nat) = 1 then 0 else p.val; rw [if_neg (by decide)]
    | ⟨1, _⟩ => show l.val = if (2048 : Nat) = 1 then 0 else l.val; rw [if_neg (by decide)]
    | ⟨2, _⟩ => show (0 : Nat) = if (1 : Nat) = 1 then 0 else d.val; rw [if_pos rfl])]
  rw [shapeCast_apply _ shapeCasts_S4x2048_S4x2048x1 (ix3 p l (0 : Fin 1)) (ix2 p l) (by
    rw [Shape.rowMajor_val_two, Shape.rowMajor_val_three]
    show p.val * 2048 + l.val = (p.val * 2048 + l.val) * 1 + 0
    omega)]
  rw [divf_apply, broadcast_apply]
  refine congrArg (Ideal.div · _) ?_
  refine (Ideal.multiReduction_add_single _ 0x00000000#32 reduces_S4x2x2048_S4x2048 _ _ (ix2 p l)).trans ?_
  refine Finset.sum_congr rfl fun (k : Fin 2) _ => ?_
  have hlift : reduces_S4x2x2048_S4x2048.lift (ix2 p l) k = ix3 p k l := funext fun a => Fin.ext (by
    match a with
    | ⟨0, _⟩ => rfl
    | ⟨1, _⟩ => rfl
    | ⟨2, _⟩ => rfl)
  rw [hlift]
  refine (products_apply _ _ p k l).trans ?_
  rw [shapeCast_self]
  rfl

end Cert.Attend.Kernel

end
-- ==== Proof.KernelValue.lean ====
/-
  From blocks to the whole result array.  The grid has 16 points; point `t` stages batches 4t … 4t+3 of the
  sentence array and of the entity rows, and writes back the same four batches of the result.  The entity rows
  are what the host operations before the region made of the two arguments (a gather of two rows per batch along
  the position axis, with the usual wrap of negative positions and the fill outside the range): the same term
  the reference's own gather is, so it is carried along unopened.  Each stored block is the restriction of the
  specification `attend` to its four batches, the blocks tile the array (batch b lies in the block of point
  b / 4), and so the array after the run is `attend` of the sentence argument and the gathered entity rows.
-/
import proofs.«139430_j72507637891612_1_alg».proof.Proof.Gen.KernelIdeal.Value
import proofs.«139430_j72507637891612_1_alg».proof.Proof.Gen.ReferenceIdeal.Read
import proofs.«139430_j72507637891612_1_alg».proof.Proof.KernelBody
import proofs.«139430_j72507637891612_1_alg».proof.Proof.Spec
import Idealize.ShloMosaic.Lib.StableHlo.Run

set_option maxRecDepth 16384

noncomputable section

namespace Cert.Attend.KernelValue

open Cert.KernelIdeal Cert.KernelIdeal.Gen Idealize.ShloMosaic Idealize.ShloMosaic.TcCoe Idealize.SL.Sem
open Idealize.ShloMosaic.ValueIdx Cert.Attend
open Idealize.ShloMosaic.Pipeline (Dat)

variable (m : (ℓ : Loc nD τ sig) → Buf (Elt Ideal) ℓ) (ρ : Dev nD → PrngReg)

set_option maxHeartbeats 2000000 in
/-- The entity rows the region finds are the host's gather of the two arguments: the composed term of the
    operations before the region, which is the reference's stage of the same name. -/
theorem entity_eq (c : Dev nD) :
    (V m c main_v1 : SE.Idx → EReal)
      = Cert.ReferenceIdeal.Read.val_main_v1 (F := Ideal) (m ((c : Thread nD τ).loc main_arg0)) (m ((c : Thread nD τ).loc main_arg1)) := by
  dsimp only [Gen.V]
  simp only [Gen.hostOps0, Gen.hostOps0_1, List.flatten_cons, List.flatten_nil, List.append_nil, List.cons_append, List.nil_append]
  after_results_simp <;> rfl

/-- The zero offsets of the whole-block accesses. -/
theorem hz : (![0, 0, 0] : Fin 3 → Nat) = fun _ => 0 := funext fun a => by fin_cases a <;> rfl

/-- The three index maps over the grid: each window's block index is (t, 0, 0). -/
theorem idx_facts : ∀ t : Fin cfg0.N, win0_2.index t (0 : Fin 3) = t.val ∧ win0_2.index t (1 : Fin 3) = 0 ∧ win0_2.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Point `t`'s sentence block at (p, l, d) is the sentence array at batch 4t + p. -/
theorem sent_block (c : Dev nD) (t : Fin cfg0.N) (p : Fin 4) (l : Fin 2048) (d : Fin 128) (h : t.val * 4 + p.val < 64) :
    iblk m c 0 t (ix3 p l d) = V m c main_arg0 (ix3 ⟨t.val * 4 + p.val, h⟩ l d) := by
  obtain ⟨_, _, _, e0, e1, e2, _, _, _⟩ := idx_facts t
  show V m c main_arg0 (((cfg0.win 0).blk t).view.emb (ix3 p l d)) = V m c main_arg0 _
  refine congrArg (V m c main_arg0) (funext fun a => Fin.ext ?_)
  match a with
  | ⟨0, _⟩ => show win0_0.index t (0 : Fin 3) * 4 + 1 * p.val = t.val * 4 + p.val; rw [e0]; omega
  | ⟨1, _⟩ => show win0_0.index t (1 : Fin 3) * 2048 + 1 * l.val = l.val; rw [e1]; omega
  | ⟨2, _⟩ => show win0_0.index t (2 : Fin 3) * 128 + 1 * d.val = d.val; rw [e2]; omega

/-- Point `t`'s entity block at (p, k, d) is the entity rows at batch 4t + p. -/
theorem entity_block (c : Dev nD) (t : Fin cfg0.N) (p : Fin 4) (k : Fin 2) (d : Fin 128) (h : t.val * 4 + p.val < 64) :
    iblk m c 1 t (ix3 p k d) = V m c main_v1 (ix3 ⟨t.val * 4 + p.val, h⟩ k d) := by
  obtain ⟨_, _, _, _, _, _, e0, e1, e2⟩ := idx_facts t
  show V m c main_v1 (((cfg0.win 1).blk t).view.emb (ix3 p k d)) = V m c main_v1 _
  refine congrArg (V m c main_v1) (funext fun a => Fin.ext ?_)
  match a with
  | ⟨0, _⟩ => show win0_1.index t (0 : Fin 3) * 4 + 1 * p.val = t.val * 4 + p.val; rw [e0]; omega
  | ⟨1, _⟩ => show win0_1.index t (1 : Fin 3) * 2 + 1 * k.val = k.val; rw [e1]; omega
  | ⟨2, _⟩ => show win0_1.index t (2 : Fin 3) * 128 + 1 * d.val = d.val; rw [e2]; omega

/-- Batch 4t + p of a point's block is a batch of the array. -/
theorem point_lt (t : Fin cfg0.N) (p : Fin 4) : t.val * 4 + p.val < 64 := by
  have ht : t.val < 16 := lt_of_lt_of_eq t.isLt N_0
  have := p.isLt; omega

/-- What the body stores at point `t`, entry (p, l, d): the specification at batch 4t + p. -/
theorem point_eq (c : Dev nD) (t : Fin cfg0.N) (p : Fin 4) (l : Fin 2048) (d : Fin 128) :
    k0_pay1 (F := Ideal) (iblk m c 0 t) (iblk m c 1 t) (ix3 p l d)
      = attend (V m c main_arg0) (V m c main_v1) (ix3 ⟨t.val * 4 + p.val, point_lt t p⟩ l d) := by
  refine (Cert.Attend.Kernel.pay_apply (iblk m c 0 t) (iblk m c 1 t) p l d).trans ?_
  rw [attend_apply]
  unfold score
  simp only [sent_block m c t p _ _ (point_lt t p), entity_block m c t p _ _ (point_lt t p)]

/-- The whole stored block at point `t`, as a function of the block index. -/
theorem stored_eq (c : Dev nD) (t : Fin cfg0.N) :
    k0_pay1 (F := Ideal) (iblk m c 0 t) (iblk m c 1 t)
      = fun y : S4x2048x128.Idx => attend (V m c main_arg0) (V m c main_v1) (ix3 ⟨t.val * 4 + (y 0).val, point_lt t (y 0)⟩ (y 1) (y 2)) := by
  funext y
  obtain ⟨p, l, d, rfl⟩ : ∃ (p : Fin 4) (l : Fin 2048) (d : Fin 128), y = ix3 p l d := ⟨y 0, y 1, y 2, eq_ix3 y⟩
  exact point_eq m c t p l d

/-- What point `t` writes back is block `t` of the specification of the arrays the region finds. -/
theorem flushed_eq (c : Dev nD) (t : Fin cfg0.N) :
    (dats m 0 c).flushed 2 t = ((cfg0.win 2).blk t).view.read (Elt Ideal) (attend (V m c main_arg0) (V m c main_v1)) := by
  rw [Cert.KernelIdeal.Value.flushed2]
  unfold out0_2
  rw [View.canon_unit_zero hz]
  simp only [View.ld_unit_zero (S := S4x2048x128) hz, View.ld_unit_zero (S := S4x2x128) hz]
  rw [stored_eq]
  obtain ⟨e0, e1, e2, _⟩ := idx_facts t
  funext j
  show attend (V m c main_arg0) (V m c main_v1) _ = attend (V m c main_arg0) (V m c main_v1) (((cfg0.win 2).blk t).view.emb j)
  refine congrArg (attend (V m c main_arg0) (V m c main_v1)) (funext fun a => Fin.ext ?_)
  match a with
  | ⟨0, _⟩ => show t.val * 4 + (j 0).val = win0_2.index t (0 : Fin 3) * 4 + 1 * (j 0).val; rw [e0]; omega
  | ⟨1, _⟩ => show (j 1).val = win0_2.index t (1 : Fin 3) * 2048 + 1 * (j 1).val; rw [e1]; omega
  | ⟨2, _⟩ => show (j 2).val = win0_2.index t (2 : Fin 3) * 128 + 1 * (j 2).val; rw [e2]; omega

/-- An index of the result array is in point `t`'s block iff each coordinate is in the block's range. -/
theorem mem_blk (t : Fin cfg0.N) (i : S64x2048x128.Idx) :
    i ∈ ((cfg0.win 2).blk t).view.set ↔ ∀ a : Fin 3, win0_2.index t a * S4x2048x128.size a ≤ (i a).val ∧ (i a).val < win0_2.index t a * S4x2048x128.size a + S4x2048x128.size a := by
  show i ∈ ((View.whole main_v2).slice (win0_2.rect t)).set ↔ _
  rw [View.set_slice_whole, Rect.mem_set_unit]
  exact Iff.rfl

/-- Every index of the result array is in the block of the point that holds its batch: point (batch / 4). -/
theorem cover (i : S64x2048x128.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 128 := (i 2).isLt
  let t : Fin cfg0.N := ⟨(i 0).val / 4, lt_of_lt_of_eq (by omega : (i 0).val / 4 < 16) N_0.symm⟩
  obtain ⟨e0, e1, e2, _⟩ := idx_facts t
  have e0' : win0_2.index t (0 : Fin 3) = (i 0).val / 4 := e0
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The result array after the run: the specification of the sentence argument and of the entity rows that the
    host's gather made of the two arguments. -/
theorem final (c : Dev nD) :
    (dats m 0 c).arrAt 2 cfg0.N
      = attend (m ((c : Thread nD τ).loc main_arg0))
          (Cert.ReferenceIdeal.Read.val_main_v1 (F := Ideal) (m ((c : Thread nD τ).loc main_arg0)) (m ((c : Thread nD τ).loc main_arg1))) := by
  rw [← entity_eq m c, ← V_main_arg0 m c]
  exact (dats m 0 c).arrAt_eq_of_cover 2 (attend (V m c main_arg0) (V m c main_v1)) (fun t _ => flushed_eq m c t) cover

/-- The kernel's run with its result named by the specification. -/
theorem run : θ_run defs (onTc (τ := τ) (main (F := Ideal))) ⟨m, fun _ => 0, ρ⟩ fun r => ∀ c : Dev nD,
      r.2.mem ((c : Thread nD τ).loc main_v2)
        = attend (m ((c : Thread nD τ).loc main_arg0))
            (Cert.ReferenceIdeal.Read.val_main_v1 (F := Ideal) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Attend.KernelValue

end
-- ==== Proof.lean ====
/-
  The certificate of the attention-scaling kernel against its reference.

  Both programs first gather, for each of the 64 batches, two rows of the sentence array [64, 2048, 128] at the
  positions the integer argument names (the entity rows, [64, 2, 128]); the gather is the same sequence of host
  operations in both, so its result is one term of the arguments and is never opened.  Then each computes, for
  batch b and position l, the score  s(b, l) = (∑ k < 2, ∑ d < 128, entity(b, k, d) · sentence(b, l, d)) / 2
  and returns  sentence(b, l, d) · s(b, l).

  The kernel does this on blocks of four batches (16 grid points): a batched product of the entity rows with the
  sentence rows into a zero accumulator, a sum over the two entity rows, a quotient by the word of 2.0, a broadcast
  over the features and a product.  The reference does it on whole arrays with the host's product, its sum from
  the zero word, its quotient by the same word and its product.  Over the extended reals the two are the same
  sums in the same order, the narrowing of the kernel's operands is the identity, and the zero the reference's sum
  starts from is the additive identity; no law that needs finiteness is used, so the precondition is not opened.

  Modules: Spec (the function `attend`), RefValue (the reference's stages are `attend`), KernelBody (the body's
  stored value at an entry), KernelValue (the blocks tile the array: the kernel's run ends at `attend`).
  The three frames are the generated ones (the reference's is its generated run with the result dropped), and
  the idealization rewrote nothing, so its conjunct is trivial.
-/
import proofs.«139430_j72507637891612_1_alg».proof.Defs
import proofs.«139430_j72507637891612_1_alg».proof.Proof.Gen.Kernel
import proofs.«139430_j72507637891612_1_alg».proof.Proof.Gen.Kernel.Skeleton
import proofs.«139430_j72507637891612_1_alg».proof.Proof.Gen.Kernel.Launch
import proofs.«139430_j72507637891612_1_alg».proof.Proof.Gen.Kernel.Points
import proofs.«139430_j72507637891612_1_alg».proof.Proof.Gen.Kernel.Frame
import proofs.«139430_j72507637891612_1_alg».proof.Proof.Gen.KernelIdeal
import proofs.«139430_j72507637891612_1_alg».proof.Proof.Gen.KernelIdeal.Skeleton
import proofs.«139430_j72507637891612_1_alg».proof.Proof.Gen.KernelIdeal.Launch
import proofs.«139430_j72507637891612_1_alg».proof.Proof.Gen.KernelIdeal.Points
import proofs.«139430_j72507637891612_1_alg».proof.Proof.Gen.KernelIdeal.Frame
import proofs.«139430_j72507637891612_1_alg».proof.Proof.Gen.ReferenceIdeal
import proofs.«139430_j72507637891612_1_alg».proof.Proof.Gen.Pre_finite_inputs
import proofs.«139430_j72507637891612_1_alg».proof.Proof.Gen.KernelIdeal.Value
import proofs.«139430_j72507637891612_1_alg».proof.Proof.Gen.ReferenceIdeal.Run
import proofs.«139430_j72507637891612_1_alg».proof.Proof.Gen.ReferenceIdeal.Read
import proofs.«139430_j72507637891612_1_alg».proof.Proof.Spec
import proofs.«139430_j72507637891612_1_alg».proof.Proof.RefValue
import proofs.«139430_j72507637891612_1_alg».proof.Proof.KernelBody
import proofs.«139430_j72507637891612_1_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's are both
    `attend` of the sentence argument and the gathered entity rows. -/
theorem algebraic : Cert.algebraic_KernelIdeal_ReferenceIdeal := by
  intro m ρ m' ρ' _ hagree
  refine ⟨_, Cert.Attend.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v8_eq _ _).trans (Cert.Attend.Reference.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
